-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x20000x64 : Shape := ⟨3, ![16, 20000, 64]⟩
abbrev S16x20000x2 : Shape := ⟨3, ![16, 20000, 2]⟩
abbrev S_ : Shape := ⟨0, ![]⟩

class Facts : Prop where
  bcast_S_S16x20000x64 : S_.BroadcastsInDim S16x20000x64 (![] : Fin 0 → Fin S16x20000x64.rank)
  reducesTo_S16x20000x64_S_d0_1_2 : S16x20000x64.ReducesTo [0, 1, 2] S_
  h_S_ : 0 < S_.numel

variable [Facts]

def fn {F : FTy → Type} [FloatOps F] (main_arg0 : FVec F S16x20000x64 .f32) (main_arg1 : IVec S16x20000x2 32) : IVec S_ 1 :=
  let main_v0 : FVec F S16x20000x64 .f32 := Host.absf main_arg0
  let main_cst : FVec F S_ .f32 := constant S_ .f32 0x7F800000#32
  let main_v1 : FVec F S16x20000x64 .f32 := broadcastInDim S16x20000x64 ![] bcast_S_S16x20000x64 main_cst
  let main_v2 : IVec S16x20000x64 1 := cmpf .olt main_v0 main_v1
  let main_c : IVec S_ 1 := constantI S_ 1 1#1
  let main_v3 : IVec S_ 1 := (fun x v => Host.reduce IntOp.andi x v reducesTo_S16x20000x64_S_d0_1_2 h_S_) main_v2 main_c
  main_v3
-- ==== Kernel.lean ====
abbrev S16x20000x64 : Shape := ⟨3, ![16, 20000, 64]⟩
abbrev S16x20000x2 : Shape := ⟨3, ![16, 20000, 2]⟩
abbrev S16x1x64 : Shape := ⟨3, ![16, 1, 64]⟩
abbrev S1x1000x64 : Shape := ⟨3, ![1, 1000, 64]⟩
abbrev S1x1x64 : Shape := ⟨3, ![1, 1, 64]⟩
abbrev S1x64 : Shape := ⟨2, ![1, 64]⟩

abbrev nBuf : Space → Nat
  | .hbm => 4
  | .vmem => 8
  | .smem => 0
  | _ => 0

abbrev bufTy : (tb : Table) → Fin (tcTables nBuf tb) → BufTy
  | .hbm, ⟨0, _⟩ => ⟨S16x20000x64, .f32⟩
  | .hbm, ⟨1, _⟩ => ⟨S16x20000x2, .i32⟩
  | .hbm, ⟨2, _⟩ => ⟨S16x1x64, .f32⟩
  | .hbm, ⟨3, _⟩ => ⟨S16x20000x64, .f32⟩
  | .local _ .vmem, ⟨0, _⟩ => ⟨S1x1000x64, .f32⟩
  | .local _ .vmem, ⟨1, _⟩ => ⟨S1x1000x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x1000x64, .f32⟩
  | .local _ .vmem, ⟨7, _⟩ => ⟨S1x1000x64, .f32⟩
  | _, _ => ⟨S16x20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![16, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 20], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  inb_S1x1000x64_S1x1000x64_0_0_0 : ∀ a, (![0, 0, 0] : Fin 3 → Nat) a + S1x1000x64.size a ≤ S1x1000x64.size a
  h_S1x1000x64 : 0 < S1x1000x64.numel
  reduces_S1x1000x64_S1x64 : S1x1000x64.Reduces [1] S1x64
  shapeCasts_S1x64_S1x1x64 : S1x64.ShapeCasts S1x1x64
  broadcasts_S1x1x64_S1x1000x64 : S1x1x64.Broadcasts S1x1000x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x64.size a ≤ S16x20000x64.size a
  hwx0_0 : ∀ i : grid0.Coords, EltTy.bits .f32 = 32 ∨ (Rect.block (s := S16x20000x64) S1x1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S16x1x64.size a
  hwx0_1 : ∀ i : grid0.Coords, EltTy.bits .f32 = 32 ∨ (Rect.block (s := S16x1x64) S1x1x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x64.size a ≤ S16x1x64.size a
  hwx1_0 : ∀ i : grid1.Coords, EltTy.bits .f32 = 32 ∨ (Rect.block (s := S16x1x64) S1x1x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1000x64.size a ≤ S16x20000x64.size a
  hwx1_1 : ∀ i : grid1.Coords, EltTy.bits .f32 = 32 ∨ (Rect.block (s := S16x20000x64) S1x1000x64.size (cc1_transform_1 i) (hinb1_1 i)).WholeWords (EltTy.packing .f32)

variable [Facts₀]

abbrev win0_0 : Pipeline.Window sig grid0 :=
  Pipeline.Window.ofSpec (Memref.whole main_arg0) S1x1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x1x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16x20000x64 : Shape := ⟨3, ![16, 20000, 64]⟩
abbrev S16x20000x2 : Shape := ⟨3, ![16, 20000, 2]⟩
abbrev S_ : Shape := ⟨0, ![]⟩
abbrev S16x64 : Shape := ⟨2, ![16, 64]⟩
abbrev S16x1x64 : Shape := ⟨3, ![16, 1, 64]⟩

abbrev nBuf : Space → Nat
  | .hbm => 6
  | .vmem => 0
  | .smem => 0
  | _ => 0

abbrev bufTy : (tb : Table) → Fin (tcTables nBuf tb) → BufTy
  | .hbm, ⟨0, _⟩ => ⟨S16x20000x64, .f32⟩
  | .hbm, ⟨1, _⟩ => ⟨S16x20000x2, .i32⟩
  | .hbm, ⟨2, _⟩ => ⟨S_, .f32⟩
  | .hbm, ⟨3, _⟩ => ⟨S16x64, .f32⟩
  | .hbm, ⟨4, _⟩ => ⟨S16x1x64, .f32⟩
  | .hbm, ⟨5, _⟩ => ⟨S16x20000x64, .f32⟩
  | _, _ => ⟨S16x20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S16x20000x64_S16x64_d1 : S16x20000x64.ReducesTo [1] S16x64
  h_S_ : 0 < S_.numel
  bcast_S16x64_S16x1x64_0_2 : S16x64.BroadcastsInDim S16x1x64 (![0, 2] : Fin 2 → Fin S16x1x64.rank)
  bcast_S16x1x64_S16x20000x64_0_1_2 : S16x1x64.BroadcastsInDim S16x20000x64 (![0, 1, 2] : Fin 3 → Fin S16x20000x64.rank)

variable [Facts₀]

class Facts : Prop extends Facts₀ where

variable [Facts]
-- ==== Proof.ColumnSum.lean ====
/-
  The arithmetic that joins the two programs. A column of a [16, 20000, 64] array — batch `b`, feature `d`, the
  20000 rows in order — summed in 20 consecutive runs of 1000 rows and the 20 partial sums then added is the sum of the
  column: addition on the extended reals is commutative and associative, so the grouping of a finite sum does not matter
  and no entry has to be finite.
-/
import Idealize.ShloMosaic.Lib.ValueIdx
import Mathlib.Algebra.BigOperators.Intervals

noncomputable section

open Idealize.ShloMosaic Idealize.ShloMosaic.ValueIdx

namespace Cert.ColumnSum

/-- A sum over `a` consecutive runs of `b` terms each is the sum over the first `a * b` terms. -/
theorem sum_runs {M : Type*} [AddCommMonoid M] (f : ℕ → M) (b : ℕ) :
    ∀ a : ℕ, ∑ s ∈ Finset.range a, ∑ k ∈ Finset.range b, f (b * s + k) = ∑ n ∈ Finset.range (a * b), f n
  | 0 => by simp
  | a + 1 => by
    rw [Finset.sum_range_succ, sum_runs f b a, Nat.succ_mul, Finset.sum_range_add, Nat.mul_comm a b]

/-- Entry `(b, n, d)` of the array as a function of EVERY natural `b` and `n`: the batch and the row are taken modulo
    their extents, so that partial sums can be written over `Finset.range` without carrying bounds. Inside the extents
    it is the entry itself (`col_eq`). -/
def col {α : Type} (x : (⟨3, ![16, 20000, 64]⟩ : Shape).Idx → α) (b : ℕ) (d : Fin 64) (n : ℕ) : α :=
  x (ix3 (⟨b % 16, Nat.mod_lt _ (by decide)⟩ : Fin 16) (⟨n % 20000, Nat.mod_lt _ (by decide)⟩ : Fin 20000) d)

theorem col_eq {α : Type} (x : (⟨3, ![16, 20000, 64]⟩ : Shape).Idx → α) (b : Fin 16) (d : Fin 64) (n : Fin 20000) :
    col x b.val d n.val = x (ix3 b n d) := by
  unfold col
  congr 1
  have hb : b.val % 16 = b.val := Nat.mod_eq_of_lt b.isLt
  have hn : n.val % 20000 = n.val := Nat.mod_eq_of_lt n.isLt
  congr 1
  · exact Fin.ext hb
  · exact Fin.ext hn

/-- The column's sum, grouped as the kernel forms it: 20 runs of 1000 rows. -/
theorem sum_col_runs {M : Type} [AddCommMonoid M] (x : (⟨3, ![16, 20000, 64]⟩ : Shape).Idx → M) (b : Fin 16) (d : Fin 64) :
    ∑ s ∈ Finset.range 20, ∑ k : Fin 1000, col x b.val d (1000 * s + k.val) = ∑ n : Fin 20000, x (ix3 b n d) := by
  have h1 : ∀ s, ∑ k : Fin 1000, col x b.val d (1000 * s + k.val) = ∑ k ∈ Finset.range 1000, col x b.val d (1000 * s + k) :=
    fun s => (Finset.sum_range fun k => col x b.val d (1000 * s + k)).symm
  simp only [h1]
  rw [sum_runs (col x b.val d) 1000 20, Finset.sum_range]
  exact Finset.sum_congr rfl fun n _ => col_eq x b d n

/-- THE SPECIFICATION both programs meet at Ideal: entry `(b, n, d)` of the result is the sum over every row `r` of the
    argument's entry `(b, r, d)` — the same for every `n`. -/
def total (x : (⟨3, ![16, 20000, 64]⟩ : Shape).Idx → EReal) : (⟨3, ![16, 20000, 64]⟩ : Shape).Idx → EReal :=
  fun i => ∑ r : Fin 20000, x (ix3 (i 0) r (i 2))

theorem total_apply (x : (⟨3, ![16, 20000, 64]⟩ : Shape).Idx → EReal) (i : (⟨3, ![16, 20000, 64]⟩ : Shape).Idx) :
    total x i = ∑ r : Fin 20000, x (ix3 (i 0) r (i 2)) := rfl

end Cert.ColumnSum

end
-- ==== Proof.SumRegion.lean ====
/-
  The first region as a value. Its grid has 320 points, point `t` at batch `t / 20` and chunk `t % 20`; the body adds
  to the batch's [1, 1, 64] accumulator the column sums of the chunk's 1000 rows, after storing zeros into it at chunk 0;
  the accumulator is written back once per batch, after chunk 19. So at Ideal entry `(b, 0, d)` of the region's result is
  the sum over all 20000 rows `n` of the input's entry `(b, n, d)`.
-/
import proofs.«172758_j40922448396317_1_alg».proof.Proof.Gen.KernelIdeal.Frame
import proofs.«172758_j40922448396317_1_alg».proof.Proof.ColumnSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Fold

open Cert.KernelIdeal Cert.KernelIdeal.Gen Cert.ColumnSum

/-! ## What one run of the body leaves in the accumulator, at any float instance -/

section AnyInstance

variable {F : FTy → Type} [FloatOps F]

theorem hz : (![0, 0, 0] : Fin 3 → Nat) = fun _ => 0 := funext fun a => by fin_cases a <;> rfl

/-- The zero block the first chunk stores. -/
abbrev zero : Vec F S1x1x64 .f32 := broadcast S1x1x64 (Scalar.ofBits .f32 0x00000000#32)

/-- One chunk's contribution: its 1000 rows added up, column by column, laid out as a [1, 1, 64] block. -/
abbrev colSums (x : Vec F S1x1000x64 .f32) : Vec F S1x1x64 .f32 :=
  shapeCast S1x1x64 (multiReduction .add [1] S1x64 x 0x00000000#32 reduces_S1x1000x64_S1x64 (.inl rfl) rfl) shapeCasts_S1x64_S1x1x64

/-- A later chunk (the reset not taken): the accumulator holding `xo` is left holding `xo` plus the chunk's column sums. -/
theorem out_B (c : Dev nD) (i : grid0.Coords) (a1 : Memref sig .tc .vmem S1x1000x64 .f32) (h1 : a1.IsWhole)
    (a2 : Memref sig .tc .vmem S1x1x64 .f32) (h2 : a2.IsWhole) (hc : ¬cond0_0 i) (x : Vec F S1x1000x64 .f32) (xo : Vec F S1x1x64 .f32) :
    out0_B_1 c i a1 h1 a2 h2 hc x xo = addf xo (colSums x) := by
  unfold out0_B_1
  rw [View.read_writes_eq_canon _ _ _ (cover0_B_1 c i a1 h1 a2 h2 hc x xo)]
  unfold kernelRun0_B
  dsimp only
  sl_unfold_words
  rw [View.canon_unit_zero hz]
  unfold k0_pay2
  simp only [View.readAt_eq_ld, h1.read_unread, h2.read_unread, View.ld_unit_zero (S := S1x1000x64) hz,
    View.ld_unit_zero (S := S1x1x64) hz, shapeCast_self]

/-- The first chunk of a batch (the reset taken): zeros are stored, read back, and the chunk's column sums added. -/
theorem out_A (c : Dev nD) (i : grid0.Coords) (a1 : Memref sig .tc .vmem S1x1000x64 .f32) (h1 : a1.IsWhole)
    (a2 : Memref sig .tc .vmem S1x1x64 .f32) (h2 : a2.IsWhole) (hc : cond0_0 i) (x : Vec F S1x1000x64 .f32) :
    out0_A_1 c i a1 h1 a2 h2 hc x = addf zero (colSums x) := by
  unfold out0_A_1
  rw [View.read_writes_eq_canon _ _ _ (cover0_A_1 c i a1 h1 a2 h2 hc x)]
  unfold kernelRun0_A
  dsimp only
  sl_unfold_words
  rw [View.canon_cons_unit_zero (S := S1x1x64) hz, View.readCov_unit_zero (S := S1x1x64) _ hz]
  unfold k0_pay2 k0_pay1
  simp only [View.readAt_eq_ld, h1.read_unread, View.ld_unit_zero (S := S1x1000x64) hz, shapeCast_self]

end AnyInstance

/-! ## At Ideal: the chunk's column sums, the fold over a batch's 20 chunks, the region's result array -/

section AtIdeal

variable (V : (c : Dev nD) → (b : Ref sig .tc) → Buf (Elt Ideal) ((c : Thread nD τ).loc b))

/-- The input array as the region finds it, and its block at point `t`, at their literal types. -/
abbrev xarr (c : Dev nD) : S16x20000x64.Idx → EReal := V c main_arg0
abbrev xblk (c : Dev nD) (t : Fin cfg0.N) : Vec Ideal S1x1000x64 .f32 := iblk0 V c 0 t

/-- Entry `(0, 0, d)` of a chunk's column sums is the sum of the chunk's column `d`. -/
theorem colSums_apply (x : Vec Ideal S1x1000x64 .f32) (u v : Fin 1) (d : Fin 64) :
    colSums (F := Ideal) x (ix3 u v d) = ∑ k : Fin 1000, x (ix3 (0 : Fin 1) k d) := by
  refine (shapeCast_ab_1ab_apply (a := 1) (b := 64) _ shapeCasts_S1x64_S1x1x64 u v d).trans ?_
  refine (Ideal.multiReduction_add_single (x : FVec Ideal S1x1000x64 .f32) 0x00000000#32 reduces_S1x1000x64_S1x64 (.inl rfl) rfl (ix2 v d)).trans ?_
  refine Finset.sum_congr rfl fun k _ => congrArg x (funext fun a => Fin.ext ?_)
  have hv : v.val = 0 := by omega
  match a with
  | ⟨0, _⟩ => exact hv
  | ⟨1, _⟩ => rfl
  | ⟨2, _⟩ => rfl

/-- The printed index maps over the grid: the input block is at (batch, chunk, 0), the accumulator's at (batch, 0, 0). -/
theorem idx_facts : ∀ t : Fin cfg0.N, win0_0.index t (0 : Fin 3) = t.val / 20 ∧ win0_0.index t (1 : Fin 3) = t.val % 20
    ∧ win0_0.index t (2 : Fin 3) = 0 ∧ win0_1.index t (0 : Fin 3) = t.val / 20 ∧ win0_1.index t (1 : Fin 3) = 0
    ∧ win0_1.index t (2 : Fin 3) = 0 :=
  (by decide +kernel : ∀ t : Fin grid0.N, _)

/-- Row `k`, column `d` of the input block at point `t` is the input's entry at batch `t / 20`, row `1000 (t % 20) + k`. -/
theorem xblk_apply (c : Dev nD) (t : Fin cfg0.N) (k : Fin 1000) (d : Fin 64) :
    xblk V c t (ix3 (0 : Fin 1) k d) = col (xarr V c) (t.val / 20) d (1000 * (t.val % 20) + k.val) := by
  have hN : t.val < 320 := lt_of_lt_of_eq t.isLt (show cfg0.N = 320 from N_0)
  obtain ⟨e0, e1, e2, -, -, -⟩ := idx_facts t
  unfold xblk iblk0 col
  rw [View.read_apply]
  show V c main_arg0 _ = V c main_arg0 _
  congr 1
  funext a
  apply Fin.ext
  match a with
  | ⟨0, _⟩ => show win0_0.index t (0 : Fin 3) * 1 + 1 * 0 = (t.val / 20) % 16; omega
  | ⟨1, _⟩ => show win0_0.index t (1 : Fin 3) * 1000 + 1 * k.val = (1000 * (t.val % 20) + k.val) % 20000; omega
  | ⟨2, _⟩ => show win0_0.index t (2 : Fin 3) * 64 + 1 * d.val = d.val; omega

/-- What point `n` adds to entry `(0, 0, d)` of the accumulator, as a function of every natural `n`. -/
def addend (c : Dev nD) (n : ℕ) (j : S1x1x64.Idx) : EReal :=
  ∑ k : Fin 1000, col (xarr V c) (n / 20) (j 2) (1000 * (n % 20) + k.val)

theorem colSums_xblk (c : Dev nD) (t : Fin cfg0.N) (j : S1x1x64.Idx) : colSums (xblk V c t) j = addend V c t.val j :=
  (congrArg (colSums (xblk V c t)) (eq_ix3 j)).trans ((colSums_apply (xblk V c t) (j 0) (j 1) (j 2)).trans
    (Finset.sum_congr rfl fun k _ => xblk_apply V c t k (j 2)))

/-- THE FOLD. After point `t` the accumulator holds the contributions of its batch's chunks `0 … t % 20`, added up. -/
theorem outsAt_apply (c : Dev nD) (t : Fin cfg0.N) (j : S1x1x64.Idx) :
    outsAt0 V c t.val t.isLt j = ∑ s ∈ Finset.range (t.val % 20 + 1), addend V c (20 * (t.val / 20) + s) j := by
  have h' : 20 * (t.val / 20) + t.val % 20 < cfg0.N := by rw [Nat.div_add_mod]; exact t.isLt
  rw [Pipeline.eq_accAt_of_mod (fun n h => outsAt0 V c n h) 20
    (fun n h => addf zero (colSums (xblk V c ⟨n, h⟩)))
    (fun n h acc => addf acc (colSums (xblk V c ⟨n, h⟩)))
    (fun n h h0 => (outsAt0_A V c ⟨n, h⟩ h0).trans (out_A ..))
    (fun n h hB => (outsAt0_B V c ⟨n + 1, h⟩ hB).trans (out_B ..))
    (by decide) t.val t.isLt h']
  rw [Pipeline.accAt_add_apply _ _ (fun _ => (0 : EReal)) (addend V c) (20 * (t.val / 20)) 19
    (fun h i => by
      show (Ideal.ofBits .f32 0x00000000#32 : EReal) + colSums (xblk V c ⟨_, h⟩) i = 0 + _
      rw [Ideal.ofBits_zero_f32, colSums_xblk])
    (fun n h acc i _ _ => by
      show acc i + colSums (xblk V c ⟨n, h⟩) i = _
      rw [colSums_xblk])
    (t.val % 20) (by omega) h' j, zero_add]

/-- After a batch's last chunk the accumulator's entry `(0, 0, d)` is the sum of the batch's column `d` over all 20000
    rows: the 20 chunks' contributions, each a run of 1000 consecutive rows, regrouped. -/
theorem acc_last (c : Dev nD) (t : Fin cfg0.N) (h19 : t.val % 20 = 19) (hb : t.val / 20 < 16) (u v : Fin 1) (d : Fin 64) :
    outsAt0 V c t.val t.isLt (ix3 u v d) = ∑ n : Fin 20000, xarr V c (ix3 (⟨t.val / 20, hb⟩ : Fin 16) n d) := by
  rw [outsAt_apply, h19, ← sum_col_runs (xarr V c) ⟨t.val / 20, hb⟩ d]
  refine Finset.sum_congr rfl fun s hs => ?_
  have hs' : s < 20 := Finset.mem_range.mp hs
  unfold addend
  rw [show (20 * (t.val / 20) + s) / 20 = t.val / 20 by omega, show (20 * (t.val / 20) + s) % 20 = s by omega]

/-- The region's result as ONE function of the input array: the column sums over all 20000 rows. -/
def rowSum (x : S16x20000x64.Idx → EReal) : S16x1x64.Idx → EReal :=
  fun i => ∑ n : Fin 20000, x (ix3 (i 0) n (i 2))

theorem rowSum_apply (x : S16x20000x64.Idx → EReal) (i : S16x1x64.Idx) :
    rowSum x i = ∑ n : Fin 20000, x (ix3 (i 0) n (i 2)) := rfl

/-- An array read through the accumulator's block at point `t` is the array at the block's embedded index. -/
theorem read_blk (G : S16x1x64.Idx → EReal) (t : Fin cfg0.N) (j : ((cfg0.win 1).xblock (grid0.coords t)).Idx) :
    ((cfg0.win 1).blk t).view.read (Elt Ideal) G j = G (((cfg0.win 1).blk t).view.emb j) := rfl

/-- What a write-back point (chunk 19) writes back is its block of `rowSum` of the input. -/
theorem flushed_eq (c : Dev nD) (t : Fin cfg0.N) (hf : (cfg0.win 1).flush t = true) :
    (dat0 V c).flushed 1 t = ((cfg0.win 1).blk t).view.read (Elt Ideal) (rowSum (xarr V c)) := by
  have hN : t.val < 320 := lt_of_lt_of_eq t.isLt (show cfg0.N = 320 from N_0)
  have h19 : t.val % 20 = 19 := (flush0_1 t).mp hf
  have hb : t.val / 20 < 16 := by omega
  obtain ⟨-, -, -, e0, e1, e2⟩ := idx_facts t
  show (cfg0.win 1).cut (grid0.coords t) ((dat0 V c).after 1 t) = _
  rw [after0_1]
  funext j
  have hj0 : (j 0).val < 1 := (j 0).isLt
  have hj1 : (j 1).val < 1 := (j 1).isLt
  have hj2 : (j 2).val < 64 := (j 2).isLt
  refine Eq.trans ?_ (read_blk (rowSum (xarr V c)) t j).symm
  rw [rowSum_apply]
  refine (congrArg (outsAt0 V c t.val t.isLt)
    (show (cfg0.win 1).xinj (grid0.coords t) j = ix3 (⟨(j 0).val, hj0⟩ : Fin 1) (⟨(j 1).val, hj1⟩ : Fin 1) (⟨(j 2).val, hj2⟩ : Fin 64) from
      funext fun a => Fin.ext (by match a with | ⟨0, _⟩ => rfl | ⟨1, _⟩ => rfl | ⟨2, _⟩ => rfl))).trans ?_
  rw [acc_last V c t h19 hb]
  refine Finset.sum_congr rfl fun n _ => ?_
  show V c main_arg0 _ = V c main_arg0 _
  congr 1
  funext a
  apply Fin.ext
  match a with
  | ⟨0, _⟩ => show t.val / 20 = win0_1.index t (0 : Fin 3) * 1 + 1 * (j 0).val; omega
  | ⟨1, _⟩ => rfl
  | ⟨2, _⟩ => show (j 2).val = win0_1.index t (2 : Fin 3) * 64 + 1 * (j 2).val; omega

/-- Every entry of the [16, 1, 64] result lies in the block its batch's last chunk writes back. -/
theorem covered (i : S16x1x64.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 64 := (i 2).isLt
  have hlt : 20 * (i 0).val + 19 < cfg0.N := by rw [show cfg0.N = 320 from N_0]; omega
  refine ⟨⟨20 * (i 0).val + 19, hlt⟩, (flush0_1 _).mpr (by show (20 * (i 0).val + 19) % 20 = 19; omega), ?_⟩
  obtain ⟨-, -, -, e0, e1, e2⟩ := idx_facts ⟨20 * (i 0).val + 19, hlt⟩
  show i ∈ ((View.whole main_v0).slice (win0_1.rect ⟨20 * (i 0).val + 19, hlt⟩)).set
  rw [View.set_slice_whole, Rect.mem_set_unit]
  intro a
  match a with
  | ⟨0, _⟩ =>
    show win0_1.index ⟨20 * (i 0).val + 19, hlt⟩ (0 : Fin 3) * 1 ≤ (i 0).val ∧ (i 0).val < win0_1.index ⟨20 * (i 0).val + 19, hlt⟩ (0 : Fin 3) * 1 + 1
    rw [e0]; show (20 * (i 0).val + 19) / 20 * 1 ≤ (i 0).val ∧ (i 0).val < (20 * (i 0).val + 19) / 20 * 1 + 1; omega
  | ⟨1, _⟩ =>
    show win0_1.index ⟨20 * (i 0).val + 19, hlt⟩ (1 : Fin 3) * 1 ≤ (i 1).val ∧ (i 1).val < win0_1.index ⟨20 * (i 0).val + 19, hlt⟩ (1 : Fin 3) * 1 + 1
    rw [e1]; omega
  | ⟨2, _⟩ =>
    show win0_1.index ⟨20 * (i 0).val + 19, hlt⟩ (2 : Fin 3) * 64 ≤ (i 2).val ∧ (i 2).val < win0_1.index ⟨20 * (i 0).val + 19, hlt⟩ (2 : Fin 3) * 64 + 64
    rw [e2]; omega

/-- THE REGION'S RESULT ARRAY after its run: the column sums of the input array as the region found it. -/
theorem final (c : Dev nD) : (dat0 V c).arrAt 1 cfg0.N = rowSum (xarr V c) :=
  (dat0 V c).arrAt_eq_of_cover 1 (rowSum (xarr V c)) (flushed_eq V c) covered

end AtIdeal

end Cert.KernelIdeal.Fold

end
-- ==== Proof.SpreadRegion.lean ====
/-
  The second region as a value. Its grid has 320 points, point `t` at batch `t / 20` and row chunk `t % 20`; the body
  loads the batch's [1, 1, 64] block of the sums and stores it, repeated over 1000 rows, as the chunk's [1, 1000, 64] block of
  the result, which is written back at every point. So entry `(b, n, d)` of the result array is entry `(b, 0, d)` of the sums:
  a broadcast over the row axis, at any float instance.
-/
import proofs.«172758_j40922448396317_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Spread

open Cert.KernelIdeal Cert.KernelIdeal.Gen

variable {F : FTy → Type} [FloatOps F]
variable (V : (c : Dev nD) → (b : Ref sig .tc) → Buf (Elt F) ((c : Thread nD τ).loc b))

theorem hz : (![0, 0, 0] : Fin 3 → Nat) = fun _ => 0 := funext fun a => by fin_cases a <;> rfl

/-- The sums as the region finds them, and their block at point `t`, at their literal types. -/
abbrev sarr (c : Dev nD) : S16x1x64.Idx → Elt F .f32 := V c main_v0
abbrev sblk (c : Dev nD) (t : Fin cfg1.N) : Vec F S1x1x64 .f32 := iblk1 V c 0 t

/-- The stored block at row `r`, column `d` is the loaded block's entry `(0, 0, d)`. -/
theorem pay_apply (x0 : Vec F S1x1x64 .f32) (j : S1x1000x64.Idx) :
    k1_pay1 x0 j = x0 (ix3 (0 : Fin 1) (0 : Fin 1) (j 2)) := by
  unfold k1_pay1
  simp only [shapeCast_self]
  exact broadcastTo_apply x0 broadcasts_S1x1x64_S1x1000x64 j (ix3 (0 : Fin 1) (0 : Fin 1) (j 2)) (fun a => match a with
    | ⟨0, _⟩ => by show (0 : ℕ) = if (1 : Nat) = 1 then 0 else _; rw [if_pos rfl]
    | ⟨1, _⟩ => by show (0 : ℕ) = if (1 : Nat) = 1 then 0 else _; rw [if_pos rfl]
    | ⟨2, _⟩ => by show (j 2).val = if (64 : Nat) = 1 then 0 else (j 2).val; rw [if_neg (by decide)])

/-- The printed index maps over the grid: the sums' block is at (batch, 0, 0), the result's at (batch, chunk, 0). -/
theorem idx_facts : ∀ t : Fin cfg1.N, win1_0.index t (0 : Fin 3) = t.val / 20 ∧ win1_0.index t (1 : Fin 3) = 0
    ∧ win1_0.index t (2 : Fin 3) = 0 ∧ win1_1.index t (0 : Fin 3) = t.val / 20 ∧ win1_1.index t (1 : Fin 3) = t.val % 20
    ∧ win1_1.index t (2 : Fin 3) = 0 :=
  (by decide +kernel : ∀ t : Fin grid1.N, _)

/-- The region's result as ONE function of the sums: each batch's row of sums repeated over the 20000 rows. -/
abbrev spread {α : Type} (s : S16x1x64.Idx → α) : S16x20000x64.Idx → α :=
  fun i => s (ix3 (i 0) (0 : Fin 1) (i 2))

/-- What point `t` writes back is its block of `spread` of the sums. -/
theorem flushed_eq (c : Dev nD) (t : Fin cfg1.N) :
    (dat1 V c).flushed 1 t = ((cfg1.win 1).blk t).view.read (Elt F) (spread (sarr V c)) := by
  obtain ⟨e0, e1, e2, f0, f1, f2⟩ := idx_facts t
  show (cfg1.win 1).cut (grid1.coords t) ((dat1 V c).after 1 t) = _
  rw [after1_1]
  unfold out1_1
  rw [View.canon_unit_zero hz]
  simp only [View.ld_unit_zero (S := S1x1x64) hz]
  funext j
  rw [View.read_apply]
  show k1_pay1 (sblk V c t) j = spread (sarr V c) (((cfg1.win 1).blk t).view.emb j)
  refine (pay_apply (sblk V c t) j).trans ?_
  unfold sblk iblk1
  rw [View.read_apply]
  show V c main_v0 _ = V c main_v0 _
  congr 1
  have h0 : (j 0).val < 1 := (j 0).isLt
  funext a
  apply Fin.ext
  match a with
  | ⟨0, _⟩ => show win1_0.index t (0 : Fin 3) * 1 + 1 * 0 = win1_1.index t (0 : Fin 3) * 1 + 1 * (j 0).val; omega
  | ⟨1, _⟩ => show win1_0.index t (1 : Fin 3) * 1 + 1 * 0 = 0; omega
  | ⟨2, _⟩ => show win1_0.index t (2 : Fin 3) * 64 + 1 * (j 2).val = win1_1.index t (2 : Fin 3) * 64 + 1 * (j 2).val; omega

/-- Every entry `(b, n, d)` of the result lies in the block of point `20 b + n / 1000`. -/
theorem covered (i : S16x20000x64.Idx) :
    ∃ t : Fin cfg1.N, (cfg1.win 1).flush t = true ∧ i ∈ ((cfg1.win 1).blk t).view.set := by
  have hi0 : (i 0).val < 16 := (i 0).isLt
  have hi1 : (i 1).val < 20000 := (i 1).isLt
  have hi2 : (i 2).val < 64 := (i 2).isLt
  have hlt : 20 * (i 0).val + (i 1).val / 1000 < cfg1.N := by rw [show cfg1.N = 320 from N_1]; omega
  refine ⟨⟨20 * (i 0).val + (i 1).val / 1000, hlt⟩, flush1_1 _, ?_⟩
  obtain ⟨-, -, -, f0, f1, f2⟩ := idx_facts ⟨20 * (i 0).val + (i 1).val / 1000, hlt⟩
  show i ∈ ((View.whole main_v1).slice (win1_1.rect ⟨20 * (i 0).val + (i 1).val / 1000, hlt⟩)).set
  rw [View.set_slice_whole, Rect.mem_set_unit]
  intro a
  match a with
  | ⟨0, _⟩ =>
    show win1_1.index ⟨20 * (i 0).val + (i 1).val / 1000, hlt⟩ (0 : Fin 3) * 1 ≤ (i 0).val ∧ (i 0).val < win1_1.index ⟨20 * (i 0).val + (i 1).val / 1000, hlt⟩ (0 : Fin 3) * 1 + 1
    rw [f0]; show (20 * (i 0).val + (i 1).val / 1000) / 20 * 1 ≤ (i 0).val ∧ (i 0).val < (20 * (i 0).val + (i 1).val / 1000) / 20 * 1 + 1; omega
  | ⟨1, _⟩ =>
    show win1_1.index ⟨20 * (i 0).val + (i 1).val / 1000, hlt⟩ (1 : Fin 3) * 1000 ≤ (i 1).val ∧ (i 1).val < win1_1.index ⟨20 * (i 0).val + (i 1).val / 1000, hlt⟩ (1 : Fin 3) * 1000 + 1000
    rw [f1]; show (20 * (i 0).val + (i 1).val / 1000) % 20 * 1000 ≤ (i 1).val ∧ (i 1).val < (20 * (i 0).val + (i 1).val / 1000) % 20 * 1000 + 1000; omega
  | ⟨2, _⟩ =>
    show win1_1.index ⟨20 * (i 0).val + (i 1).val / 1000, hlt⟩ (2 : Fin 3) * 64 ≤ (i 2).val ∧ (i 2).val < win1_1.index ⟨20 * (i 0).val + (i 1).val / 1000, hlt⟩ (2 : Fin 3) * 64 + 64
    rw [f2]; omega

/-- THE REGION'S RESULT ARRAY after its run: the sums, as the region found them, broadcast over the row axis. -/
theorem final (c : Dev nD) : (dat1 V c).arrAt 1 cfg1.N = spread (sarr V c) :=
  (dat1 V c).arrAt_eq_of_cover 1 (spread (sarr V c)) (fun t _ => flushed_eq V c t) covered

end Cert.KernelIdeal.Spread

end
-- ==== Proof.KernelValue.lean ====
/-
  The idealized kernel's whole run as a value. The first region leaves in the intermediate array the column sums of the
  argument over its 20000 rows; the second finds that array as its input and leaves in the result array its broadcast over
  the row axis. Composed, entry `(b, n, d)` of the result is `∑ r, x (b, r, d)` of the argument `x`: the specification.
-/
import proofs.«172758_j40922448396317_1_alg».proof.Proof.KernelIdealRun
import proofs.«172758_j40922448396317_1_alg».proof.Proof.SumRegion
import proofs.«172758_j40922448396317_1_alg».proof.Proof.SpreadRegion
import proofs.«172758_j40922448396317_1_alg».proof.Proof.ColumnSum

noncomputable section

open Idealize.ShloMosaic Idealize.ShloMosaic.TcCoe Idealize.SL.Sem
open Idealize.ShloMosaic.ValueIdx

namespace Cert.KernelIdeal.Whole

open Cert.KernelIdeal Cert.KernelIdeal.Gen Cert.ColumnSum

variable (m : (ℓ : Loc nD τ sig) → Buf (Elt Ideal) ℓ) (ρ : Dev nD → PrngReg)

/-- The intermediate array as the second region finds it: the column sums of the launch contents of the argument. -/
theorem sums_eq (c : Dev nD) :
    Spread.sarr (V1 m ρ) c = Fold.rowSum (m ((c.tc : Thread nD τ).loc main_arg0)) :=
  (W1_arr m ρ c 1).trans (Fold.final (V0 m ρ) c)

/-- The result array after the run is the specification of the launch contents of the argument. -/
theorem result_eq (c : Dev nD) :
    W2 m ρ c (Proc.devRef .tc main_v1) = total (m ((c.tc : Thread nD τ).loc main_arg0)) := by
  refine (W2_arr m ρ c 1).trans ((Spread.final (V1 m ρ) c).trans ?_)
  show Spread.spread (Spread.sarr (V1 m ρ) c) = _
  rw [sums_eq m ρ c]
  funext i
  rw [total_apply]
  show Fold.rowSum _ (ix3 (i 0) (0 : Fin 1) (i 2)) = _
  rw [Fold.rowSum_apply]

/-- Every weakly fair execution of the idealized kernel's @main ends with the result array at the specification of the
    argument and with both arguments as launched. -/
theorem run : θ_run defs (onTc (τ := τ) (main (F := Ideal))) ⟨m, fun _ => 0, ρ⟩ (fun r => ∀ c : Dev nD,
      r.2.mem ((c.tc : Thread nD τ).loc main_v1) = total (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_result m ρ)

end Cert.KernelIdeal.Whole

end
-- ==== Proof.RefSum.lean ====
/-
  The reference as a value. It sums the argument over its row axis from the initial value zero (a [16, 64] array),
  inserts a unit row axis, and broadcasts over the 20000 rows: at Ideal entry `(b, n, d)` of its result is
  `0 + ∑ r, x (b, r, d)`, which is the specification.
-/
import proofs.«172758_j40922448396317_1_alg».proof.Defs
import proofs.«172758_j40922448396317_1_alg».proof.Proof.Gen.ReferenceIdeal.Run
import proofs.«172758_j40922448396317_1_alg».proof.Proof.Gen.ReferenceIdeal.Read
import proofs.«172758_j40922448396317_1_alg».proof.Proof.ColumnSum
import Idealize.ShloMosaic.PureOps.Ideal.Laws

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read Cert.ColumnSum

/-- The reference's last stage, read through its two broadcasts down to the reduction, is the specification. -/
theorem ref_total (x : (⟨S16x20000x64, .f32⟩ : BufTy).Contents (Elt Ideal)) :
    val_main_v2 (F := Ideal) x = total x := by
  funext i
  rw [val_main_v2_apply, val_main_v1_apply, val_main_v0_apply, val_main_cst_apply, total_apply]
  show (Ideal.ofBits .f32 0x00000000#32 : EReal) + _ = _
  rw [Ideal.ofBits_zero_f32, zero_add]
  exact Finset.sum_congr rfl fun k _ => congrArg x (funext fun a => Fin.ext (by
    match a with
    | ⟨0, _⟩ => rfl
    | ⟨1, _⟩ => rfl
    | ⟨2, _⟩ => rfl))

end Cert.ReferenceIdeal.RefValue

end
-- ==== Proof.lean ====
/-
  The certificate of the two-kernel row aggregation against its jnp reference.

  The kernel sums a [16, 20000, 64] array over its row axis in 20 chunks of 1000 rows per batch, accumulating the chunks'
  column sums in a [16, 1, 64] array (first region), and then writes each batch's sums into every row of the
  [16, 20000, 64] result (second region). The reference sums over the row axis at once and broadcasts. At Ideal both results
  are, at `(b, n, d)`, the sum over every row `r` of the argument's `(b, r, d)`: a finite sum on the extended reals
  may be grouped in any way, since their addition is commutative and associative, so the precondition is never opened.
  The ideal pass rewrote nothing, so the idealization is the kernel's own text. The frames of the two kernel programs are
  the generated ones; the reference's is its generated run with the result dropped.
-/
import proofs.«172758_j40922448396317_1_alg».proof.Defs
import proofs.«172758_j40922448396317_1_alg».proof.Proof.Gen.Kernel
import proofs.«172758_j40922448396317_1_alg».proof.Proof.Gen.Kernel.Skeleton
import proofs.«172758_j40922448396317_1_alg».proof.Proof.Gen.Kernel.Launch
import proofs.«172758_j40922448396317_1_alg».proof.Proof.Gen.Kernel.Points
import proofs.«172758_j40922448396317_1_alg».proof.Proof.Gen.Kernel.Frame
import proofs.«172758_j40922448396317_1_alg».proof.Proof.Gen.KernelIdeal
import proofs.«172758_j40922448396317_1_alg».proof.Proof.Gen.KernelIdeal.Skeleton
import proofs.«172758_j40922448396317_1_alg».proof.Proof.Gen.KernelIdeal.Launch
import proofs.«172758_j40922448396317_1_alg».proof.Proof.Gen.KernelIdeal.Points
import proofs.«172758_j40922448396317_1_alg».proof.Proof.Gen.KernelIdeal.Frame
import proofs.«172758_j40922448396317_1_alg».proof.Proof.Gen.ReferenceIdeal
import proofs.«172758_j40922448396317_1_alg».proof.Proof.Gen.ReferenceIdeal.Run
import proofs.«172758_j40922448396317_1_alg».proof.Proof.Gen.ReferenceIdeal.Read
import proofs.«172758_j40922448396317_1_alg».proof.Proof.Gen.Pre_finite_inputs
import proofs.«172758_j40922448396317_1_alg».proof.Proof.KernelValue
import proofs.«172758_j40922448396317_1_alg».proof.Proof.RefSum
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result arrays at the specification of arguments that agree. -/
theorem algebraic : Cert.algebraic_KernelIdeal_ReferenceIdeal := by
  intro m ρ m' ρ' _ hagree
  refine ⟨fun c => Cert.ColumnSum.total (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_total, (hagree c).1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
